-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S1x64 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S1x64 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S5000x64 : Shape := ⟨2, ![5000, 64]⟩
abbrev S64x1 : Shape := ⟨2, ![64, 1]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 48
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .f32⟩
  | .hbm, ⟨24, _⟩ => ⟨S100000x64, .f32⟩
  | .hbm, ⟨25, _⟩ => ⟨S1000000x1, .i32⟩
  | .hbm, ⟨26, _⟩ => ⟨S100000x64, .f32⟩
  | .hbm, ⟨27, _⟩ => ⟨S64x64, .f32⟩
  | .hbm, ⟨28, _⟩ => ⟨S64x64, .f32⟩
  | .hbm, ⟨29, _⟩ => ⟨S100000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S_, .f32⟩
  | .hbm, ⟨40, _⟩ => ⟨S100000x64, .f32⟩
  | .hbm, ⟨41, _⟩ => ⟨S1000000x1, .i32⟩
  | .hbm, ⟨42, _⟩ => ⟨S100000x64, .f32⟩
  | .hbm, ⟨43, _⟩ => ⟨S64x64, .f32⟩
  | .hbm, ⟨44, _⟩ => ⟨S64x64, .f32⟩
  | .hbm, ⟨45, _⟩ => ⟨S100000x64, .f32⟩
  | .hbm, ⟨46, _⟩ => ⟨S64x1, .f32⟩
  | .hbm, ⟨47, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x1, .f32⟩
  | .local _ .vmem, ⟨21, _⟩ => ⟨S1, .f32⟩
  | .local _ .vmem, ⟨22, _⟩ => ⟨S5000x1, .f32⟩
  | .local _ .vmem, ⟨23, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  transposes_S1x64_S64x1_1_0 : S1x64.Transposes [1, 0] S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1.size a ≤ S1.size a
  hwx2_2 : ∀ i : grid2.Coords, EltTy.bits .f32 = 32 ∨ (Rect.block (s := S1) S1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S64x1 : Shape := ⟨2, ![64, 1]⟩
abbrev S100000x1 : Shape := ⟨2, ![100000, 1]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .f32⟩
  | .hbm, ⟨24, _⟩ => ⟨S100000x64, .f32⟩
  | .hbm, ⟨25, _⟩ => ⟨S1000000x1, .i32⟩
  | .hbm, ⟨26, _⟩ => ⟨S100000x64, .f32⟩
  | .hbm, ⟨27, _⟩ => ⟨S64x64, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S64x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x64, .f32⟩
  | .hbm, ⟨45, _⟩ => ⟨S_, .f32⟩
  | .hbm, ⟨46, _⟩ => ⟨S100000x64, .f32⟩
  | .hbm, ⟨47, _⟩ => ⟨S1000000x1, .i32⟩
  | .hbm, ⟨48, _⟩ => ⟨S100000x64, .f32⟩
  | .hbm, ⟨49, _⟩ => ⟨S64x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S64x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S64x1, .f32⟩
  | .hbm, ⟨59, _⟩ => ⟨S100000x1, .f32⟩
  | .hbm, ⟨60, _⟩ => ⟨S1x1, .f32⟩
  | .hbm, ⟨61, _⟩ => ⟨S100000x1, .f32⟩
  | .hbm, ⟨62, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«132947_j8177617732073_1_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.LayerMath.lean ====
/- One graph-convolution layer and the linear head, entry by entry over the extended reals.
   For m nodes with 64 features each, a layer sends the neighbour sums A and the features X to
     tanh (A · Wr + X · Wo + b)   (the bias b added along every row),
   and the head sends the features H to H · W + b with a single output column. Both are row-local: row r of the
   result depends only on row r of the node arrays (and on the weights and the bias), so a block of rows of the result is the same formula applied to
   that block of rows. -/
import Idealize.ShloMosaic.Lib.ValueIdx
import Idealize.ShloMosaic.PureOps.Ideal.Laws
import proofs.«132947_j8177617732073_1_alg».proof.Proof.LibMatProd

noncomputable section

open scoped BigOperators

namespace Cert.GraphConv

open Idealize.ShloMosaic Idealize.ShloMosaic.ValueIdx Cert.MatProd

/-- A layer: entry (r, j) is tanh ((Σ_c A(r,c) Wr(c,j) + Σ_c X(r,c) Wo(c,j)) + b(j)). -/
def layer {m : Nat} (A X : (⟨2, ![m, 64]⟩ : Shape).Idx → EReal) (Wr : (⟨2, ![64, 64]⟩ : Shape).Idx → EReal)
    (b : (⟨1, ![64]⟩ : Shape).Idx → EReal) (Wo : (⟨2, ![64, 64]⟩ : Shape).Idx → EReal) :
    (⟨2, ![m, 64]⟩ : Shape).Idx → EReal :=
  fun i => Ideal.tanh ((matProd A Wr i + matProd X Wo i) + b (ix1 (i 1)))

theorem layer_ix2 {m : Nat} (A X : (⟨2, ![m, 64]⟩ : Shape).Idx → EReal) (Wr : (⟨2, ![64, 64]⟩ : Shape).Idx → EReal)
    (b : (⟨1, ![64]⟩ : Shape).Idx → EReal) (Wo : (⟨2, ![64, 64]⟩ : Shape).Idx → EReal) (r : Fin m) (j : Fin 64) :
    layer A X Wr b Wo (ix2 r j)
      = Ideal.tanh (((∑ c : Fin 64, A (ix2 r c) * Wr (ix2 c j)) + ∑ c : Fin 64, X (ix2 r c) * Wo (ix2 c j)) + b (ix1 j)) := rfl

/-- The head: entry (r, j) is Σ_c H(r,c) W(c,j) + b(j), with a single column j = 0. -/
def head {m : Nat} (H : (⟨2, ![m, 64]⟩ : Shape).Idx → EReal) (W : (⟨2, ![64, 1]⟩ : Shape).Idx → EReal)
    (b : (⟨1, ![1]⟩ : Shape).Idx → EReal) : (⟨2, ![m, 1]⟩ : Shape).Idx → EReal :=
  fun i => matProd H W i + b (ix1 (i 1))

theorem head_ix2 {m : Nat} (H : (⟨2, ![m, 64]⟩ : Shape).Idx → EReal) (W : (⟨2, ![64, 1]⟩ : Shape).Idx → EReal)
    (b : (⟨1, ![1]⟩ : Shape).Idx → EReal) (r : Fin m) (j : Fin 1) :
    head H W b (ix2 r j) = (∑ c : Fin 64, H (ix2 r c) * W (ix2 c j)) + b (ix1 j) := rfl

/-- Row locality of a layer: if the rows of A' and X' are the rows ρ r of A and X, then the rows of the layer of A', X'
    are the rows ρ r of the layer of A, X. -/
theorem layer_rows {m n : Nat} (ρ : Fin n → Fin m)
    (A X : (⟨2, ![m, 64]⟩ : Shape).Idx → EReal) (A' X' : (⟨2, ![n, 64]⟩ : Shape).Idx → EReal)
    (Wr Wr' : (⟨2, ![64, 64]⟩ : Shape).Idx → EReal) (b b' : (⟨1, ![64]⟩ : Shape).Idx → EReal)
    (Wo Wo' : (⟨2, ![64, 64]⟩ : Shape).Idx → EReal)
    (hA : ∀ r c, A' (ix2 r c) = A (ix2 (ρ r) c)) (hX : ∀ r c, X' (ix2 r c) = X (ix2 (ρ r) c))
    (hWr : ∀ a c, Wr' (ix2 a c) = Wr (ix2 a c)) (hb : ∀ j, b' (ix1 j) = b (ix1 j))
    (hWo : ∀ a c, Wo' (ix2 a c) = Wo (ix2 a c)) (r : Fin n) (j : Fin 64) :
    layer A' X' Wr' b' Wo' (ix2 r j) = layer A X Wr b Wo (ix2 (ρ r) j) := by
  rw [layer_ix2, layer_ix2]
  simp only [hA, hX, hWr, hb, hWo]

/-- Row locality of the head. -/
theorem head_rows {m n : Nat} (ρ : Fin n → Fin m)
    (H : (⟨2, ![m, 64]⟩ : Shape).Idx → EReal) (H' : (⟨2, ![n, 64]⟩ : Shape).Idx → EReal)
    (W W' : (⟨2, ![64, 1]⟩ : Shape).Idx → EReal) (b b' : (⟨1, ![1]⟩ : Shape).Idx → EReal)
    (hH : ∀ r c, H' (ix2 r c) = H (ix2 (ρ r) c)) (hW : ∀ a c, W' (ix2 a c) = W (ix2 a c))
    (hb : ∀ j, b' (ix1 j) = b (ix1 j)) (r : Fin n) (j : Fin 1) :
    head H' W' b' (ix2 r j) = head H W b (ix2 (ρ r) j) := by
  rw [head_ix2, head_ix2]
  simp only [hH, hW, hb]

end Cert.GraphConv

end
-- ==== Proof.LibBiasRow.lean ====
/- A vector of n entries laid along each of the m rows of a matrix, read at an entry: entry (a, j) of the matrix is
   entry j of the vector. Three spellings of the same layout: the vector cast to one row; that row broadcast down
   the rows (a kernel's `vector.shape_cast` then `vector.broadcast`); and the host's two steps, the vector broadcast
   along axis 1 into a one-row matrix, then that matrix broadcast along both axes. This is the bias of a dense layer
   added to every row of a product. -/
import Idealize.ShloMosaic.Lib.ValueIdx
import Idealize.ShloMosaic.Lib.Pipeline.Value
import Idealize.ShloMosaic.Lib.KernelVsHost

noncomputable section

namespace Cert.BiasRow

open Idealize.ShloMosaic Idealize.ShloMosaic.ValueIdx

variable {α : Type}

/-- The vector cast to a one-row matrix reads, at (0, j), the vector at j. -/
theorem oneRow_cast_apply {n : ℕ} (b : (⟨1, ![n]⟩ : Shape).Idx → α)
    (h1 : (⟨1, ![n]⟩ : Shape).ShapeCasts ⟨2, ![1, n]⟩) (j : Fin n) :
    shapeCast ⟨2, ![1, n]⟩ b h1 (ix2 (0 : Fin 1) j) = b (ix1 j) :=
  shapeCast_apply b h1 (ix2 (0 : Fin 1) j) (ix1 j) (by
    rw [Shape.rowMajor_val_two, Shape.rowMajor_val_one]
    show j.val = 0 * n + j.val
    omega)

/-- The kernel's spelling: the one-row cast broadcast down m rows reads, at (a, j), the vector at j. -/
theorem castRows_apply {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (j : Fin n) :
    broadcastTo ⟨2, ![m, n]⟩ (shapeCast ⟨2, ![1, n]⟩ b h1) hb (ix2 a j) = b (ix1 j) := by
  refine (broadcastTo_apply (shapeCast ⟨2, ![1, n]⟩ b h1) hb (ix2 a j) (ix2 (0 : Fin 1) j) ?_).trans
    (oneRow_cast_apply b h1 j)
  intro ax
  match ax with
  | ⟨0, _⟩ => rfl
  | ⟨1, _⟩ =>
    show j.val = if n = 1 then 0 else j.val
    split
    · have := j.isLt; omega
    · rfl

/-- The host's spelling: the vector broadcast along axis 1 into one row, that row broadcast along both axes into
    m rows, reads, at (a, j), the vector at j. -/
theorem inDimRows_apply {m n : ℕ} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (a : Fin m) (j : Fin n) :
    broadcastInDim ⟨2, ![m, n]⟩ ![0, 1] hd2 (broadcastInDim ⟨2, ![1, n]⟩ ![1] hd1 b) (ix2 a j) = b (ix1 j) := by
  refine (broadcastInDim_oneRow_apply hd2 _ a j).trans ?_
  refine broadcastInDim_apply ![1] hd1 b (ix2 (0 : Fin 1) j) (ix1 j) ?_
  intro ax
  match ax with
  | ⟨0, _⟩ =>
    show j.val = if n = 1 then 0 else j.val
    split
    · have := j.isLt; omega
    · rfl

end Cert.BiasRow

end
-- ==== Proof.Payloads.lean ====
/- What each kernel body stores, at an entry of its block: the layer formula (the two graph-convolution kernels) and
   the head formula (the last kernel) of the blocks it loaded. The bodies narrow their operands to bf16 before the
   matrix products; over the extended reals a change of float format is the identity, so the products are the exact
   ones, and the bias is one row cast and broadcast down the block's rows. -/
import proofs.«132947_j8177617732073_1_alg».proof.Proof.Gen.KernelIdeal.Skeleton
import proofs.«132947_j8177617732073_1_alg».proof.Proof.LayerMath
import proofs.«132947_j8177617732073_1_alg».proof.Proof.LibBiasRow
import Idealize.ShloMosaic.Lib.Pipeline.Value

noncomputable section

open scoped BigOperators

namespace Cert.GraphConv.Payload

open Cert.KernelIdeal Cert.KernelIdeal.Gen Idealize.ShloMosaic Idealize.ShloMosaic.ValueIdx Cert.GraphConv

/-- A 5000 x 64 by 64 x 64 product into the zero accumulator, at entry (p, q). -/
theorem mm64 (A : FVec Ideal S5000x64 .bf16) (B : FVec Ideal S64x64 .bf16) (p : Fin 5000) (q : Fin 64) :
    matmul dot_S5000x64_S64x64_S5000x64_1_0_0_1_n_n none A B (constant (F := Ideal) S5000x64 .f32 0x00000000#32) (ix2 p q)
      = ∑ c : Fin 64, A (ix2 p c) * B (ix2 c q) :=
  (Ideal.matmul_constant_zero_apply _ none A B (ix2 p q)).trans
    (Cert.DotRead.sum_contr_plain dot_S5000x64_S64x64_S5000x64_1_0_0_1_n_n.wf A B p q)

/-- A 5000 x 64 by 64 x 1 product into the zero accumulator, at entry (p, q). -/
theorem mm1 (A : FVec Ideal S5000x64 .bf16) (B : FVec Ideal S64x1 .bf16) (p : Fin 5000) (q : Fin 1) :
    matmul dot_S5000x64_S64x1_S5000x1_1_0_0_1_n_n none A B (constant (F := Ideal) S5000x1 .f32 0x00000000#32) (ix2 p q)
      = ∑ c : Fin 64, A (ix2 p c) * B (ix2 c q) :=
  (Ideal.matmul_constant_zero_apply _ none A B (ix2 p q)).trans
    (Cert.DotRead.sum_contr_plain dot_S5000x64_S64x1_S5000x1_1_0_0_1_n_n.wf A B p q)

/-- The first graph-convolution kernel stores the layer of its blocks. -/
theorem pay0_apply (v0 v3 : Vec Ideal S5000x64 .f32) (v5 v8 : Vec Ideal S64x64 .f32) (v13 : Vec Ideal S64 .f32)
    (p : Fin 5000) (q : Fin 64) :
    k0_pay1 (F := Ideal) v0 v3 v5 v8 v13 (ix2 p q) = layer v0 v3 v5 v13 v8 (ix2 p q) := by
  unfold k0_pay1
  simp only [shapeCast_self]
  show Ideal.tanh ((matmul (F := Ideal) _ none _ _ _ (ix2 p q) + matmul (F := Ideal) _ none _ _ _ (ix2 p q))
    + broadcastTo S5000x64 (shapeCast S1x64 v13 shapeCasts_S64_S1x64) broadcasts_S1x64_S5000x64 (ix2 p q)) = _
  rw [mm64, mm64, Cert.BiasRow.castRows_apply, layer_ix2]
  rfl

/-- The second graph-convolution kernel stores the layer of its blocks. -/
theorem pay1_apply (v0 v3 : Vec Ideal S5000x64 .f32) (v6 v9 : Vec Ideal S64x64 .f32) (v14 : Vec Ideal S64 .f32)
    (p : Fin 5000) (q : Fin 64) :
    k1_pay1 (F := Ideal) v0 v3 v6 v9 v14 (ix2 p q) = layer v0 v3 v6 v14 v9 (ix2 p q) := by
  unfold k1_pay1
  simp only [shapeCast_self]
  show Ideal.tanh ((matmul (F := Ideal) _ none _ _ _ (ix2 p q) + matmul (F := Ideal) _ none _ _ _ (ix2 p q))
    + broadcastTo S5000x64 (shapeCast S1x64 v14 shapeCasts_S64_S1x64) broadcasts_S1x64_S5000x64 (ix2 p q)) = _
  rw [mm64, mm64, Cert.BiasRow.castRows_apply, layer_ix2]
  rfl

/-- The last kernel stores the head of its blocks. -/
theorem pay2_apply (v0 : Vec Ideal S5000x64 .f32) (v3 : Vec Ideal S64x1 .f32) (v7 : Vec Ideal S1 .f32)
    (p : Fin 5000) (q : Fin 1) :
    k2_pay1 (F := Ideal) v0 v3 v7 (ix2 p q) = head v0 v3 v7 (ix2 p q) := by
  unfold k2_pay1
  simp only [shapeCast_self]
  show matmul (F := Ideal) _ none _ _ _ (ix2 p q)
    + broadcastTo S5000x1 (shapeCast S1x1 v7 shapeCasts_S1_S1x1) broadcasts_S1x1_S5000x1 (ix2 p q) = _
  rw [mm1, Cert.BiasRow.castRows_apply, head_ix2]
  rfl

end Cert.GraphConv.Payload

end
-- ==== Proof.Region0.lean ====
/- The first graph-convolution kernel, as a function of the arrays it finds: the grid has 20 points, point t stages
   rows 5000 t .. 5000 t + 4999 of the neighbour sums and of the features, the two weight matrices and the bias whole,
   and writes back the same rows of its result. Since a layer is row-local, what point t writes back is rows
   5000 t .. 5000 t + 4999 of the layer of the whole arrays; the 20 blocks cover every row, so after the region the
   result array is the layer of the whole arrays. -/
import proofs.«132947_j8177617732073_1_alg».proof.Proof.Gen.KernelIdeal.Frame
import proofs.«132947_j8177617732073_1_alg».proof.Proof.Payloads
import Idealize.ShloMosaic.Lib.Pipeline.Value

set_option maxRecDepth 16384

noncomputable section

namespace Cert.GraphConv.Region0

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of every window at every grid point: the three row-blocked windows move with the point along the
    rows, the weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of point t's block is row 5000 t + r of the array. -/
def rowOf (t : Fin cfg0.N) (r : Fin 5000) : Fin 100000 :=
  ⟨5000 * t.val + r.val, by have ht : t.val < 20 := t.isLt; have hr := r.isLt; omega⟩

theorem emb0 (t : Fin cfg0.N) (r : Fin 5000) (k : Fin 64) :
    ((cfg0.win 0).blk t).view.emb (ix2 r k) = ix2 (rowOf t r) k := by
  obtain ⟨e0, e1, -⟩ := idx_facts t
  funext a; apply Fin.ext
  match a with
  | ⟨0, _⟩ => show win0_0.index t (0 : Fin 2) * 5000 + 1 * r.val = 5000 * t.val + r.val; omega
  | ⟨1, _⟩ => show win0_0.index t (1 : Fin 2) * 64 + 1 * k.val = k.val; omega

theorem emb1 (t : Fin cfg0.N) (r : Fin 5000) (k : Fin 64) :
    ((cfg0.win 1).blk t).view.emb (ix2 r k) = ix2 (rowOf t r) k := by
  obtain ⟨-, -, e0, e1, -⟩ := idx_facts t
  funext a; apply Fin.ext
  match a with
  | ⟨0, _⟩ => show win0_1.index t (0 : Fin 2) * 5000 + 1 * r.val = 5000 * t.val + r.val; omega
  | ⟨1, _⟩ => show win0_1.index t (1 : Fin 2) * 64 + 1 * k.val = k.val; omega

theorem emb2 (t : Fin cfg0.N) (a' k : Fin 64) :
    ((cfg0.win 2).blk t).view.emb (ix2 a' k) = ix2 a' k := by
  obtain ⟨-, -, -, -, e0, e1, -⟩ := idx_facts t
  funext a; apply Fin.ext
  match a with
  | ⟨0, _⟩ => show win0_2.index t (0 : Fin 2) * 64 + 1 * a'.val = a'.val; omega
  | ⟨1, _⟩ => show win0_2.index t (1 : Fin 2) * 64 + 1 * k.val = k.val; omega

theorem emb3 (t : Fin cfg0.N) (k : Fin 64) :
    ((cfg0.win 3).blk t).view.emb (ix1 k) = ix1 k := by
  obtain ⟨-, -, -, -, -, -, e0, -⟩ := idx_facts t
  funext a; apply Fin.ext
  match a with
  | ⟨0, _⟩ => show win0_3.index t (0 : Fin 1) * 64 + 1 * k.val = k.val; omega

theorem emb4 (t : Fin cfg0.N) (a' k : Fin 64) :
    ((cfg0.win 4).blk t).view.emb (ix2 a' k) = ix2 a' k := by
  obtain ⟨-, -, -, -, -, -, -, e0, e1, -⟩ := idx_facts t
  funext a; apply Fin.ext
  match a with
  | ⟨0, _⟩ => show win0_4.index t (0 : Fin 2) * 64 + 1 * a'.val = a'.val; omega
  | ⟨1, _⟩ => show win0_4.index t (1 : Fin 2) * 64 + 1 * k.val = k.val; omega

theorem emb5 (t : Fin cfg0.N) (r : Fin 5000) (k : Fin 64) :
    ((cfg0.win 5).blk t).view.emb (ix2 r k) = ix2 (rowOf t r) k := by
  obtain ⟨-, -, -, -, -, -, -, -, -, e0, e1⟩ := idx_facts t
  funext a; apply Fin.ext
  match a with
  | ⟨0, _⟩ => show win0_5.index t (0 : Fin 2) * 5000 + 1 * r.val = 5000 * t.val + r.val; omega
  | ⟨1, _⟩ => show win0_5.index t (1 : Fin 2) * 64 + 1 * k.val = k.val; omega

/-- What point t writes back is block t of the layer of the arrays the region finds. -/
theorem flushed (c : Dev nD) (t : Fin cfg0.N) :
    (dat0 V c).flushed 5 t = ((cfg0.win 5).blk t).view.read (Elt Ideal)
      (layer (m := 100000) (V c main_v13) (V c main_arg0) (V c main_v14) (V c main_arg3) (V c main_v15)) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = layer (m := 100000) (V c main_v13) (V c main_arg0) (V c main_v14) (V c main_arg3) (V c main_v15)
        (((cfg0.win 5).blk t).view.emb (ix2 p q))
  rw [emb5 t p q]
  refine (Payload.pay0_apply (iblk0 V c 0 t) (iblk0 V c 1 t) (iblk0 V c 2 t) (iblk0 V c 4 t) (iblk0 V c 3 t) p q).trans ?_
  exact layer_rows (m := 100000) (n := 5000) (rowOf t) (V c main_v13) (V c main_arg0) (iblk0 V c 0 t) (iblk0 V c 1 t)
    (V c main_v14) (iblk0 V c 2 t) (V c main_arg3) (iblk0 V c 3 t) (V c main_v15) (iblk0 V c 4 t)
    (fun r k => congrArg (V c main_v13) (emb0 t r k)) (fun r k => congrArg (V c main_arg0) (emb1 t r k))
    (fun a' k => congrArg (V c main_v14) (emb2 t a' k)) (fun k => congrArg (V c main_arg3) (emb3 t k))
    (fun a' k => congrArg (V c main_v15) (emb4 t a' k)) p q

/-- An index of the result array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v16).slice (win0_5.rect t)).set ↔ _
  rw [View.set_slice_whole, Rect.mem_set_unit]
  exact Iff.rfl

/-- Every row is in the block of the point that is its quotient by 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hq : (i 0).val / 5000 < 20 := by omega
  obtain ⟨-, -, -, -, -, -, -, -, -, e0, e1⟩ := idx_facts ⟨(i 0).val / 5000, hq⟩
  refine ⟨⟨(i 0).val / 5000, hq⟩, flush0_5 _, ?_⟩
  rw [mem_blk]
  intro a
  match a with
  | ⟨0, _⟩ =>
    show win0_5.index ⟨(i 0).val / 5000, hq⟩ (0 : Fin 2) * 5000 ≤ (i 0).val ∧ (i 0).val < win0_5.index ⟨(i 0).val / 5000, hq⟩ (0 : Fin 2) * 5000 + 5000
    have e0' : win0_5.index ⟨(i 0).val / 5000, hq⟩ (0 : Fin 2) = (i 0).val / 5000 := e0
    omega
  | ⟨1, _⟩ =>
    show win0_5.index ⟨(i 0).val / 5000, hq⟩ (1 : Fin 2) * 64 ≤ (i 1).val ∧ (i 1).val < win0_5.index ⟨(i 0).val / 5000, hq⟩ (1 : Fin 2) * 64 + 64
    omega

/-- After the region its result array is the layer of the arrays it found. -/
theorem arr (c : Dev nD) :
    (dat0 V c).arrAt 5 cfg0.N
      = layer (m := 100000) (V c main_v13) (V c main_arg0) (V c main_v14) (V c main_arg3) (V c main_v15) :=
  (dat0 V c).arrAt_eq_of_cover 5 _ (fun t _ => flushed V c t) cover

end Cert.GraphConv.Region0

end
-- ==== Proof.Region1.lean ====
/- The second graph-convolution kernel, as a function of the arrays it finds: the grid has 20 points, point t stages
   rows 5000 t .. 5000 t + 4999 of the neighbour sums and of the features, the two weight matrices and the bias whole,
   and writes back the same rows of its result. Since a layer is row-local, what point t writes back is rows
   5000 t .. 5000 t + 4999 of the layer of the whole arrays; the 20 blocks cover every row, so after the region the
   result array is the layer of the whole arrays. -/
import proofs.«132947_j8177617732073_1_alg».proof.Proof.Gen.KernelIdeal.Frame
import proofs.«132947_j8177617732073_1_alg».proof.Proof.Payloads
import Idealize.ShloMosaic.Lib.Pipeline.Value

set_option maxRecDepth 16384

noncomputable section

namespace Cert.GraphConv.Region1

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of every window at every grid point: the three row-blocked windows move with the point along the
    rows, the weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of point t's block is row 5000 t + r of the array. -/
def rowOf (t : Fin cfg1.N) (r : Fin 5000) : Fin 100000 :=
  ⟨5000 * t.val + r.val, by have ht : t.val < 20 := t.isLt; have hr := r.isLt; omega⟩

theorem emb0 (t : Fin cfg1.N) (r : Fin 5000) (k : Fin 64) :
    ((cfg1.win 0).blk t).view.emb (ix2 r k) = ix2 (rowOf t r) k := by
  obtain ⟨e0, e1, -⟩ := idx_facts t
  funext a; apply Fin.ext
  match a with
  | ⟨0, _⟩ => show win1_0.index t (0 : Fin 2) * 5000 + 1 * r.val = 5000 * t.val + r.val; omega
  | ⟨1, _⟩ => show win1_0.index t (1 : Fin 2) * 64 + 1 * k.val = k.val; omega

theorem emb1 (t : Fin cfg1.N) (r : Fin 5000) (k : Fin 64) :
    ((cfg1.win 1).blk t).view.emb (ix2 r k) = ix2 (rowOf t r) k := by
  obtain ⟨-, -, e0, e1, -⟩ := idx_facts t
  funext a; apply Fin.ext
  match a with
  | ⟨0, _⟩ => show win1_1.index t (0 : Fin 2) * 5000 + 1 * r.val = 5000 * t.val + r.val; omega
  | ⟨1, _⟩ => show win1_1.index t (1 : Fin 2) * 64 + 1 * k.val = k.val; omega

theorem emb2 (t : Fin cfg1.N) (a' k : Fin 64) :
    ((cfg1.win 2).blk t).view.emb (ix2 a' k) = ix2 a' k := by
  obtain ⟨-, -, -, -, e0, e1, -⟩ := idx_facts t
  funext a; apply Fin.ext
  match a with
  | ⟨0, _⟩ => show win1_2.index t (0 : Fin 2) * 64 + 1 * a'.val = a'.val; omega
  | ⟨1, _⟩ => show win1_2.index t (1 : Fin 2) * 64 + 1 * k.val = k.val; omega

theorem emb3 (t : Fin cfg1.N) (k : Fin 64) :
    ((cfg1.win 3).blk t).view.emb (ix1 k) = ix1 k := by
  obtain ⟨-, -, -, -, -, -, e0, -⟩ := idx_facts t
  funext a; apply Fin.ext
  match a with
  | ⟨0, _⟩ => show win1_3.index t (0 : Fin 1) * 64 + 1 * k.val = k.val; omega

theorem emb4 (t : Fin cfg1.N) (a' k : Fin 64) :
    ((cfg1.win 4).blk t).view.emb (ix2 a' k) = ix2 a' k := by
  obtain ⟨-, -, -, -, -, -, -, e0, e1, -⟩ := idx_facts t
  funext a; apply Fin.ext
  match a with
  | ⟨0, _⟩ => show win1_4.index t (0 : Fin 2) * 64 + 1 * a'.val = a'.val; omega
  | ⟨1, _⟩ => show win1_4.index t (1 : Fin 2) * 64 + 1 * k.val = k.val; omega

theorem emb5 (t : Fin cfg1.N) (r : Fin 5000) (k : Fin 64) :
    ((cfg1.win 5).blk t).view.emb (ix2 r k) = ix2 (rowOf t r) k := by
  obtain ⟨-, -, -, -, -, -, -, -, -, e0, e1⟩ := idx_facts t
  funext a; apply Fin.ext
  match a with
  | ⟨0, _⟩ => show win1_5.index t (0 : Fin 2) * 5000 + 1 * r.val = 5000 * t.val + r.val; omega
  | ⟨1, _⟩ => show win1_5.index t (1 : Fin 2) * 64 + 1 * k.val = k.val; omega

/-- What point t writes back is block t of the layer of the arrays the region finds. -/
theorem flushed (c : Dev nD) (t : Fin cfg1.N) :
    (dat1 V c).flushed 5 t = ((cfg1.win 5).blk t).view.read (Elt Ideal)
      (layer (m := 100000) (V c main_v26) (V c main_v16) (V c main_v27) (V c main_arg6) (V c main_v28)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = layer (m := 100000) (V c main_v26) (V c main_v16) (V c main_v27) (V c main_arg6) (V c main_v28)
        (((cfg1.win 5).blk t).view.emb (ix2 p q))
  rw [emb5 t p q]
  refine (Payload.pay1_apply (iblk1 V c 0 t) (iblk1 V c 1 t) (iblk1 V c 2 t) (iblk1 V c 4 t) (iblk1 V c 3 t) p q).trans ?_
  exact layer_rows (m := 100000) (n := 5000) (rowOf t) (V c main_v26) (V c main_v16) (iblk1 V c 0 t) (iblk1 V c 1 t)
    (V c main_v27) (iblk1 V c 2 t) (V c main_arg6) (iblk1 V c 3 t) (V c main_v28) (iblk1 V c 4 t)
    (fun r k => congrArg (V c main_v26) (emb0 t r k)) (fun r k => congrArg (V c main_v16) (emb1 t r k))
    (fun a' k => congrArg (V c main_v27) (emb2 t a' k)) (fun k => congrArg (V c main_arg6) (emb3 t k))
    (fun a' k => congrArg (V c main_v28) (emb4 t a' k)) p q

/-- An index of the result array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v29).slice (win1_5.rect t)).set ↔ _
  rw [View.set_slice_whole, Rect.mem_set_unit]
  exact Iff.rfl

/-- Every row is in the block of the point that is its quotient by 5000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hq : (i 0).val / 5000 < 20 := by omega
  obtain ⟨-, -, -, -, -, -, -, -, -, e0, e1⟩ := idx_facts ⟨(i 0).val / 5000, hq⟩
  refine ⟨⟨(i 0).val / 5000, hq⟩, flush1_5 _, ?_⟩
  rw [mem_blk]
  intro a
  match a with
  | ⟨0, _⟩ =>
    show win1_5.index ⟨(i 0).val / 5000, hq⟩ (0 : Fin 2) * 5000 ≤ (i 0).val ∧ (i 0).val < win1_5.index ⟨(i 0).val / 5000, hq⟩ (0 : Fin 2) * 5000 + 5000
    have e0' : win1_5.index ⟨(i 0).val / 5000, hq⟩ (0 : Fin 2) = (i 0).val / 5000 := e0
    omega
  | ⟨1, _⟩ =>
    show win1_5.index ⟨(i 0).val / 5000, hq⟩ (1 : Fin 2) * 64 ≤ (i 1).val ∧ (i 1).val < win1_5.index ⟨(i 0).val / 5000, hq⟩ (1 : Fin 2) * 64 + 64
    omega

/-- After the region its result array is the layer of the arrays it found. -/
theorem arr (c : Dev nD) :
    (dat1 V c).arrAt 5 cfg1.N
      = layer (m := 100000) (V c main_v26) (V c main_v16) (V c main_v27) (V c main_arg6) (V c main_v28) :=
  (dat1 V c).arrAt_eq_of_cover 5 _ (fun t _ => flushed V c t) cover

end Cert.GraphConv.Region1

end
-- ==== Proof.Region2.lean ====
/- The last kernel, as a function of the arrays it finds: the grid has 20 points, point t stages rows
   5000 t .. 5000 t + 4999 of the hidden features, the 64 x 1 weight column and the one-entry bias whole, and writes back
   the same rows of its one-column result. The head is row-local, so what point t writes back is rows
   5000 t .. 5000 t + 4999 of the head of the whole arrays; the 20 blocks cover every row, so after the region the
   result array is the head of the whole arrays. -/
import proofs.«132947_j8177617732073_1_alg».proof.Proof.Gen.KernelIdeal.Frame
import proofs.«132947_j8177617732073_1_alg».proof.Proof.Payloads
import Idealize.ShloMosaic.Lib.Pipeline.Value

set_option maxRecDepth 16384

noncomputable section

namespace Cert.GraphConv.Region2

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of every window at every grid point: the features and the result move with the point along the
    rows, the weight column and the bias stay at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Row r of point t's block is row 5000 t + r of the array. -/
def rowOf (t : Fin cfg2.N) (r : Fin 5000) : Fin 100000 :=
  ⟨5000 * t.val + r.val, by have ht : t.val < 20 := t.isLt; have hr := r.isLt; omega⟩

theorem emb0 (t : Fin cfg2.N) (r : Fin 5000) (k : Fin 64) :
    ((cfg2.win 0).blk t).view.emb (ix2 r k) = ix2 (rowOf t r) k := by
  obtain ⟨e0, e1, -⟩ := idx_facts t
  funext a; apply Fin.ext
  match a with
  | ⟨0, _⟩ => show win2_0.index t (0 : Fin 2) * 5000 + 1 * r.val = 5000 * t.val + r.val; omega
  | ⟨1, _⟩ => show win2_0.index t (1 : Fin 2) * 64 + 1 * k.val = k.val; omega

theorem emb1 (t : Fin cfg2.N) (a' : Fin 64) (k : Fin 1) :
    ((cfg2.win 1).blk t).view.emb (ix2 a' k) = ix2 a' k := by
  obtain ⟨-, -, e0, e1, -⟩ := idx_facts t
  funext a; apply Fin.ext
  match a with
  | ⟨0, _⟩ => show win2_1.index t (0 : Fin 2) * 64 + 1 * a'.val = a'.val; omega
  | ⟨1, _⟩ => show win2_1.index t (1 : Fin 2) * 1 + 1 * k.val = k.val; omega

theorem emb2 (t : Fin cfg2.N) (k : Fin 1) :
    ((cfg2.win 2).blk t).view.emb (ix1 k) = ix1 k := by
  obtain ⟨-, -, -, -, e0, -⟩ := idx_facts t
  funext a; apply Fin.ext
  match a with
  | ⟨0, _⟩ => show win2_2.index t (0 : Fin 1) * 1 + 1 * k.val = k.val; omega

theorem emb3 (t : Fin cfg2.N) (r : Fin 5000) (k : Fin 1) :
    ((cfg2.win 3).blk t).view.emb (ix2 r k) = ix2 (rowOf t r) k := by
  obtain ⟨-, -, -, -, -, e0, e1⟩ := idx_facts t
  funext a; apply Fin.ext
  match a with
  | ⟨0, _⟩ => show win2_3.index t (0 : Fin 2) * 5000 + 1 * r.val = 5000 * t.val + r.val; omega
  | ⟨1, _⟩ => show win2_3.index t (1 : Fin 2) * 1 + 1 * k.val = k.val; omega

/-- What point t writes back is block t of the head of the arrays the region finds. -/
theorem flushed (c : Dev nD) (t : Fin cfg2.N) :
    (dat2 V c).flushed 3 t = ((cfg2.win 3).blk t).view.read (Elt Ideal)
      (head (m := 100000) (V c main_v29) (V c main_v30) (V c main_arg9)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S64x1) hz2, View.ld_unit_zero (S := S1) hz1]
  funext j
  obtain ⟨p, q, rfl⟩ : ∃ (p : Fin 5000) (q : Fin 1), j = ix2 p q := ⟨j 0, j 1, eq_ix2 j⟩
  show k2_pay1 (F := Ideal) (iblk2 V c 0 t) (iblk2 V c 1 t) (iblk2 V c 2 t) (ix2 p q)
    = head (m := 100000) (V c main_v29) (V c main_v30) (V c main_arg9) (((cfg2.win 3).blk t).view.emb (ix2 p q))
  rw [emb3 t p q]
  refine (Payload.pay2_apply (iblk2 V c 0 t) (iblk2 V c 1 t) (iblk2 V c 2 t) p q).trans ?_
  exact head_rows (m := 100000) (n := 5000) (rowOf t) (V c main_v29) (iblk2 V c 0 t)
    (V c main_v30) (iblk2 V c 1 t) (V c main_arg9) (iblk2 V c 2 t)
    (fun r k => congrArg (V c main_v29) (emb0 t r k)) (fun a' k => congrArg (V c main_v30) (emb1 t a' k))
    (fun k => congrArg (V c main_arg9) (emb2 t k)) p q

/-- An index of the result array is in point t's block iff each coordinate is in the block's range on its axis. -/
theorem mem_blk (t : Fin cfg2.N) (i : S100000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v31).slice (win2_3.rect t)).set ↔ _
  rw [View.set_slice_whole, Rect.mem_set_unit]
  exact Iff.rfl

/-- Every row is in the block of the point that is its quotient by 5000. -/
theorem cover (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  have hq : (i 0).val / 5000 < 20 := by omega
  obtain ⟨-, -, -, -, -, e0, e1⟩ := idx_facts ⟨(i 0).val / 5000, hq⟩
  refine ⟨⟨(i 0).val / 5000, hq⟩, flush2_3 _, ?_⟩
  rw [mem_blk]
  intro a
  match a with
  | ⟨0, _⟩ =>
    show win2_3.index ⟨(i 0).val / 5000, hq⟩ (0 : Fin 2) * 5000 ≤ (i 0).val ∧ (i 0).val < win2_3.index ⟨(i 0).val / 5000, hq⟩ (0 : Fin 2) * 5000 + 5000
    have e0' : win2_3.index ⟨(i 0).val / 5000, hq⟩ (0 : Fin 2) = (i 0).val / 5000 := e0
    omega
  | ⟨1, _⟩ =>
    show win2_3.index ⟨(i 0).val / 5000, hq⟩ (1 : Fin 2) * 1 ≤ (i 1).val ∧ (i 1).val < win2_3.index ⟨(i 0).val / 5000, hq⟩ (1 : Fin 2) * 1 + 1
    omega

/-- After the region its result array is the head of the arrays it found. -/
theorem arr (c : Dev nD) :
    (dat2 V c).arrAt 3 cfg2.N = head (m := 100000) (V c main_v29) (V c main_v30) (V c main_arg9) :=
  (dat2 V c).arrAt_eq_of_cover 3 _ (fun t _ => flushed V c t) cover

end Cert.GraphConv.Region2

end
-- ==== Proof.Model.lean ====
/- The whole computation as one function of the ten arguments. The neighbour sum of node features X over the edge list E
   is what the host computes: gather the feature row of every edge's source node (a negative index i read as
   i + 100000), then add each gathered row into the row of the edge's destination node, starting from zero. Two
   graph-convolution layers follow, each on the neighbour sums of its input and on the input itself, with transposed
   weight matrices; then the linear head. -/
import proofs.«132947_j8177617732073_1_alg».proof.Proof.Gen.ReferenceIdeal
import proofs.«132947_j8177617732073_1_alg».proof.Proof.LayerMath
import proofs.«132947_j8177617732073_1_alg».proof.Proof.LibBiasRow

noncomputable section

open scoped BigOperators

namespace Cert.GraphConv

open Cert.ReferenceIdeal Cert.ReferenceIdeal.Gen Idealize.ShloMosaic Idealize.ShloMosaic.ValueIdx Cert.MatProd

/-- Row 0 of the edge list as a column of gather indices, a negative entry shifted by the number of nodes. -/
def srcIdx (E : (⟨S2x1000000, .i32⟩ : BufTy).Contents (Elt Ideal)) : (⟨S1000000x1, .i32⟩ : BufTy).Contents (Elt Ideal) :=
  broadcastInDim S1000000x1 ![0] bcast_S1000000_S1000000x1_0
    (select
      (cmpi .slt (shapeCast S1000000 (extractStridedSlice S1x1000000 ![0, 0] E slices_S2x1000000_S1x1000000_0_0) shapeCasts_S1x1000000_S1000000)
        (broadcastInDim S1000000 ![] bcast_S_S1000000 (constantI S_ 32 0#32)))
      (addi (shapeCast S1000000 (extractStridedSlice S1x1000000 ![0, 0] E slices_S2x1000000_S1x1000000_0_0) shapeCasts_S1x1000000_S1000000)
        (broadcastInDim S1000000 ![] bcast_S_S1000000 (constantI S_ 32 100000#32)))
      (shapeCast S1000000 (extractStridedSlice S1x1000000 ![0, 0] E slices_S2x1000000_S1x1000000_0_0) shapeCasts_S1x1000000_S1000000))

/-- Row 1 of the edge list as a column of scatter indices. -/
def dstIdx (E : (⟨S2x1000000, .i32⟩ : BufTy).Contents (Elt Ideal)) : (⟨S1000000x1, .i32⟩ : BufTy).Contents (Elt Ideal) :=
  broadcastInDim S1000000x1 ![0] bcast_S1000000_S1000000x1_0
    (shapeCast S1000000 (extractStridedSlice S1x1000000 ![1, 0] E slices_S2x1000000_S1x1000000_1_0) shapeCasts_S1x1000000_S1000000)

/-- The neighbour sum: each node's row is the sum of the rows of X at the sources of the edges that end in it. -/
def nbrSum (X : FVec Ideal S100000x64 .f32) (E : (⟨S2x1000000, .i32⟩ : BufTy).Contents (Elt Ideal)) :
    FVec Ideal S100000x64 .f32 :=
  Host.scatterAdd scatter_S100000x64_S1000000x1_S1000000x64_1_0_0_1
    (broadcastInDim S100000x64 ![] bcast_S_S100000x64 (constant (F := Ideal) S_ .f32 0x00000000#32))
    (dstIdx E)
    (Host.gather gather_S100000x64_S1000000x1_S1000000x64_1_0_n_n_0_1_164 X (srcIdx E))

/-- The model: two layers on neighbour sums, then the head. -/
def model (X : FVec Ideal S100000x64 .f32) (E : (⟨S2x1000000, .i32⟩ : BufTy).Contents (Elt Ideal))
    (W0 : FVec Ideal S64x64 .f32) (b0 : FVec Ideal S64 .f32) (R0 : FVec Ideal S64x64 .f32)
    (W1 : FVec Ideal S64x64 .f32) (b1 : FVec Ideal S64 .f32) (R1 : FVec Ideal S64x64 .f32)
    (Wout : FVec Ideal S1x64 .f32) (bout : FVec Ideal S1 .f32) : FVec Ideal S100000x1 .f32 :=
  head (m := 100000)
    (layer (m := 100000)
      (nbrSum (layer (m := 100000) (nbrSum X E) X (transpose S64x64 [1, 0] W0 transposes_S64x64_S64x64_1_0) b0
        (transpose S64x64 [1, 0] R0 transposes_S64x64_S64x64_1_0)) E)
      (layer (m := 100000) (nbrSum X E) X (transpose S64x64 [1, 0] W0 transposes_S64x64_S64x64_1_0) b0
        (transpose S64x64 [1, 0] R0 transposes_S64x64_S64x64_1_0))
      (transpose S64x64 [1, 0] W1 transposes_S64x64_S64x64_1_0) b1
      (transpose S64x64 [1, 0] R1 transposes_S64x64_S64x64_1_0))
    (transpose S64x1 [1, 0] Wout transposes_S1x64_S64x1_1_0) bout

/-- The host's spelling of a layer, (A · W + bias rows) + X · R under tanh, is the layer: the sum of three terms is
    re-grouped (addition of extended reals is commutative and associative). -/
theorem host_layer (A X : FVec Ideal S100000x64 .f32) (W R : FVec Ideal S64x64 .f32) (b : FVec Ideal S64 .f32) :
    Host.tanh (addf (addf (Host.dotGeneral dot_S100000x64_S64x64_S100000x64_1_0_0_1_n_n none A W)
        (broadcastInDim S100000x64 ![0, 1] bcast_S1x64_S100000x64_0_1 (broadcastInDim S1x64 ![1] bcast_S64_S1x64_1 b)))
      (Host.dotGeneral dot_S100000x64_S64x64_S100000x64_1_0_0_1_n_n none X R))
    = layer (m := 100000) A X W b R := by
  have e1 : Host.dotGeneral dot_S100000x64_S64x64_S100000x64_1_0_0_1_n_n none A W = matProd A W :=
    hostDot_eq dot_S100000x64_S64x64_S100000x64_1_0_0_1_n_n.wf none A W
  have e2 : Host.dotGeneral dot_S100000x64_S64x64_S100000x64_1_0_0_1_n_n none X R = matProd X R :=
    hostDot_eq dot_S100000x64_S64x64_S100000x64_1_0_0_1_n_n.wf none X R
  rw [e1, e2]
  funext i
  obtain ⟨r, j, rfl⟩ : ∃ (r : Fin 100000) (j : Fin 64), i = ix2 r j := ⟨i 0, i 1, eq_ix2 i⟩
  show Ideal.tanh ((matProd A W (ix2 r j)
      + broadcastInDim S100000x64 ![0, 1] bcast_S1x64_S100000x64_0_1 (broadcastInDim S1x64 ![1] bcast_S64_S1x64_1 b) (ix2 r j))
      + matProd X R (ix2 r j)) = Ideal.tanh ((matProd A W (ix2 r j) + matProd X R (ix2 r j)) + b (ix1 j))
  rw [Cert.BiasRow.inDimRows_apply, add_right_comm]

/-- The host's spelling of the head is the head. -/
theorem host_head (H : FVec Ideal S100000x64 .f32) (W : FVec Ideal S64x1 .f32) (b : FVec Ideal S1 .f32) :
    addf (Host.dotGeneral dot_S100000x64_S64x1_S100000x1_1_0_0_1_n_n none H W)
      (broadcastInDim S100000x1 ![0, 1] bcast_S1x1_S100000x1_0_1 (broadcastInDim S1x1 ![1] bcast_S1_S1x1_1 b))
    = head (m := 100000) H W b := by
  have e1 : Host.dotGeneral dot_S100000x64_S64x1_S100000x1_1_0_0_1_n_n none H W = matProd H W :=
    hostDot_eq dot_S100000x64_S64x1_S100000x1_1_0_0_1_n_n.wf none H W
  rw [e1]
  funext i
  obtain ⟨r, j, rfl⟩ : ∃ (r : Fin 100000) (j : Fin 1), i = ix2 r j := ⟨i 0, i 1, eq_ix2 i⟩
  show matProd H W (ix2 r j)
      + broadcastInDim S100000x1 ![0, 1] bcast_S1x1_S100000x1_0_1 (broadcastInDim S1x1 ![1] bcast_S1_S1x1_1 b) (ix2 r j)
    = matProd H W (ix2 r j) + b (ix1 j)
  rw [Cert.BiasRow.inDimRows_apply]

end Cert.GraphConv

end
-- ==== Proof.KernelChain.lean ====
/- The kernel program's result is the model of its arguments. The contents of the buffers at the end of @main are a
   fold through its six segments; read at the result array, the fold is walked back: the last region leaves the head of
   what it found, which the stretch before it computed from what the second region left, the layer of what it found,
   and so on down to the launch contents of the arguments. Every stretch of host operations is read one operation at a
   time; every region by the whole-array value of its result. -/
import proofs.«132947_j8177617732073_1_alg».proof.Proof.Gen.KernelIdeal.Frame
import proofs.«132947_j8177617732073_1_alg».proof.Proof.Region0
import proofs.«132947_j8177617732073_1_alg».proof.Proof.Region1
import proofs.«132947_j8177617732073_1_alg».proof.Proof.Region2
import proofs.«132947_j8177617732073_1_alg».proof.Proof.Model
import Idealize.ShloMosaic.Lib.StableHlo.Run

set_option maxRecDepth 16384

noncomputable section

namespace Cert.GraphConv.Chain

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments as launched, and the two hidden layers -/

abbrev aX (c : Dev nD) : FVec Ideal S100000x64 .f32 := m ((c : Thread nD τ).loc main_arg0)
abbrev aE (c : Dev nD) : (⟨S2x1000000, .i32⟩ : BufTy).Contents (Elt Ideal) := m ((c : Thread nD τ).loc main_arg1)
abbrev aW0 (c : Dev nD) : FVec Ideal S64x64 .f32 := m ((c : Thread nD τ).loc main_arg2)
abbrev ab0 (c : Dev nD) : FVec Ideal S64 .f32 := m ((c : Thread nD τ).loc main_arg3)
abbrev aR0 (c : Dev nD) : FVec Ideal S64x64 .f32 := m ((c : Thread nD τ).loc main_arg4)
abbrev aW1 (c : Dev nD) : FVec Ideal S64x64 .f32 := m ((c : Thread nD τ).loc main_arg5)
abbrev ab1 (c : Dev nD) : FVec Ideal S64 .f32 := m ((c : Thread nD τ).loc main_arg6)
abbrev aR1 (c : Dev nD) : FVec Ideal S64x64 .f32 := m ((c : Thread nD τ).loc main_arg7)
abbrev aWo (c : Dev nD) : FVec Ideal S1x64 .f32 := m ((c : Thread nD τ).loc main_arg8)
abbrev abo (c : Dev nD) : FVec Ideal S1 .f32 := m ((c : Thread nD τ).loc main_arg9)

/-- The first hidden layer. -/
def H1 (c : Dev nD) : FVec Ideal S100000x64 .f32 :=
  layer (m := 100000) (nbrSum (aX m c) (aE m c)) (aX m c) (transpose S64x64 [1, 0] (aW0 m c) transposes_S64x64_S64x64_1_0)
    (ab0 m c) (transpose S64x64 [1, 0] (aR0 m c) transposes_S64x64_S64x64_1_0)

/-- The second hidden layer. -/
def H2 (c : Dev nD) : FVec Ideal S100000x64 .f32 :=
  layer (m := 100000) (nbrSum (H1 m c) (aE m c)) (H1 m c) (transpose S64x64 [1, 0] (aW1 m c) transposes_S64x64_S64x64_1_0)
    (ab1 m c) (transpose S64x64 [1, 0] (aR1 m c) transposes_S64x64_S64x64_1_0)

/-! ## Before the first region -/

/-- The source-node indices (row 0 of the edge list, flattened). -/
theorem W1_v1 (c : Dev nD) : W1 m ρ c (Proc.devRef .tc main_v1)
    = shapeCast S1000000 (extractStridedSlice S1x1000000 ![0, 0] (aE m c) slices_S2x1000000_S1x1000000_0_0) shapeCasts_S1x1000000_S1000000 := by
  show StableHlo.after hostOps0 (W0 m ρ c) (Proc.devRef .tc main_v1) = _
  dsimp only [hostOps0]
  after_results
  rfl

/-- The destination-node indices (row 1 of the edge list, flattened). -/
theorem W1_v3 (c : Dev nD) : W1 m ρ c (Proc.devRef .tc main_v3)
    = shapeCast S1000000 (extractStridedSlice S1x1000000 ![1, 0] (aE m c) slices_S2x1000000_S1x1000000_1_0) shapeCasts_S1x1000000_S1000000 := by
  show StableHlo.after hostOps0 (W0 m ρ c) (Proc.devRef .tc main_v3) = _
  dsimp only [hostOps0]
  after_results
  rfl

theorem V1_v13 (c : Dev nD) : V1 m ρ c main_v13 = nbrSum (aX m c) (aE m c) := by
  show StableHlo.after hostOps0 (W0 m ρ c) (Proc.devRef .tc main_v13) = _
  dsimp only [hostOps0]
  after_results
  rfl

theorem V1_arg0 (c : Dev nD) : V1 m ρ c main_arg0 = aX m c := by
  show StableHlo.after hostOps0 (W0 m ρ c) (Proc.devRef .tc main_arg0) = _
  dsimp only [hostOps0]
  after_results

theorem V1_v14 (c : Dev nD) : V1 m ρ c main_v14 = transpose S64x64 [1, 0] (aW0 m c) transposes_S64x64_S64x64_1_0 := by
  show StableHlo.after hostOps0 (W0 m ρ c) (Proc.devRef .tc main_v14) = _
  dsimp only [hostOps0]
  after_results

theorem V1_arg3 (c : Dev nD) : V1 m ρ c main_arg3 = ab0 m c := by
  show StableHlo.after hostOps0 (W0 m ρ c) (Proc.devRef .tc main_arg3) = _
  dsimp only [hostOps0]
  after_results

theorem V1_v15 (c : Dev nD) : V1 m ρ c main_v15 = transpose S64x64 [1, 0] (aR0 m c) transposes_S64x64_S64x64_1_0 := by
  show StableHlo.after hostOps0 (W0 m ρ c) (Proc.devRef .tc main_v15) = _
  dsimp only [hostOps0]
  after_results

/-- An argument the first stretch does not write is as launched. -/
theorem W1_arg5 (c : Dev nD) : W1 m ρ c (Proc.devRef .tc main_arg5) = aW1 m c := by
  show StableHlo.after hostOps0 (W0 m ρ c) (Proc.devRef .tc main_arg5) = _
  dsimp only [hostOps0]
  after_results
theorem W1_arg6 (c : Dev nD) : W1 m ρ c (Proc.devRef .tc main_arg6) = ab1 m c := by
  show StableHlo.after hostOps0 (W0 m ρ c) (Proc.devRef .tc main_arg6) = _
  dsimp only [hostOps0]
  after_results
theorem W1_arg7 (c : Dev nD) : W1 m ρ c (Proc.devRef .tc main_arg7) = aR1 m c := by
  show StableHlo.after hostOps0 (W0 m ρ c) (Proc.devRef .tc main_arg7) = _
  dsimp only [hostOps0]
  after_results
theorem W1_arg8 (c : Dev nD) : W1 m ρ c (Proc.devRef .tc main_arg8) = aWo m c := by
  show StableHlo.after hostOps0 (W0 m ρ c) (Proc.devRef .tc main_arg8) = _
  dsimp only [hostOps0]
  after_results
theorem W1_arg9 (c : Dev nD) : W1 m ρ c (Proc.devRef .tc main_arg9) = abo m c := by
  show StableHlo.after hostOps0 (W0 m ρ c) (Proc.devRef .tc main_arg9) = _
  dsimp only [hostOps0]
  after_results

/-! ## After the first region -/

/-- The first region leaves the first hidden layer in its result array. -/
theorem W2_v16 (c : Dev nD) : W2 m ρ c (Proc.devRef .tc main_v16) = H1 m c :=
  (W2_arr m ρ c 5).trans ((Region0.arr (V1 m ρ) c).trans (by
    rw [V1_v13, V1_arg0, V1_v14, V1_arg3, V1_v15]; rfl))

theorem W2_v1 (c : Dev nD) : W2 m ρ c (Proc.devRef .tc main_v1)
    = shapeCast S1000000 (extractStridedSlice S1x1000000 ![0, 0] (aE m c) slices_S2x1000000_S1x1000000_0_0) shapeCasts_S1x1000000_S1000000 :=
  (W2_of_ne m ρ c main_v1 (by decide)).trans (W1_v1 m ρ c)
theorem W2_v3 (c : Dev nD) : W2 m ρ c (Proc.devRef .tc main_v3)
    = shapeCast S1000000 (extractStridedSlice S1x1000000 ![1, 0] (aE m c) slices_S2x1000000_S1x1000000_1_0) shapeCasts_S1x1000000_S1000000 :=
  (W2_of_ne m ρ c main_v3 (by decide)).trans (W1_v3 m ρ c)
theorem W2_arg5 (c : Dev nD) : W2 m ρ c (Proc.devRef .tc main_arg5) = aW1 m c :=
  (W2_of_ne m ρ c main_arg5 (by decide)).trans (W1_arg5 m ρ c)
theorem W2_arg6 (c : Dev nD) : W2 m ρ c (Proc.devRef .tc main_arg6) = ab1 m c :=
  (W2_of_ne m ρ c main_arg6 (by decide)).trans (W1_arg6 m ρ c)
theorem W2_arg7 (c : Dev nD) : W2 m ρ c (Proc.devRef .tc main_arg7) = aR1 m c :=
  (W2_of_ne m ρ c main_arg7 (by decide)).trans (W1_arg7 m ρ c)
theorem W2_arg8 (c : Dev nD) : W2 m ρ c (Proc.devRef .tc main_arg8) = aWo m c :=
  (W2_of_ne m ρ c main_arg8 (by decide)).trans (W1_arg8 m ρ c)
theorem W2_arg9 (c : Dev nD) : W2 m ρ c (Proc.devRef .tc main_arg9) = abo m c :=
  (W2_of_ne m ρ c main_arg9 (by decide)).trans (W1_arg9 m ρ c)

/-! ## Before the second region -/

theorem V3_v26 (c : Dev nD) : V3 m ρ c main_v26 = nbrSum (H1 m c) (aE m c) := by
  show StableHlo.after hostOps1 (W2 m ρ c) (Proc.devRef .tc main_v26) = _
  dsimp only [hostOps1]
  after_results
  rw [W2_v16, W2_v1, W2_v3]
  rfl

theorem V3_v16 (c : Dev nD) : V3 m ρ c main_v16 = H1 m c := by
  show StableHlo.after hostOps1 (W2 m ρ c) (Proc.devRef .tc main_v16) = _
  dsimp only [hostOps1]
  after_results
  exact W2_v16 m ρ c

theorem V3_v27 (c : Dev nD) : V3 m ρ c main_v27 = transpose S64x64 [1, 0] (aW1 m c) transposes_S64x64_S64x64_1_0 := by
  show StableHlo.after hostOps1 (W2 m ρ c) (Proc.devRef .tc main_v27) = _
  dsimp only [hostOps1]
  after_results
  rw [W2_arg5]

theorem V3_arg6 (c : Dev nD) : V3 m ρ c main_arg6 = ab1 m c := by
  show StableHlo.after hostOps1 (W2 m ρ c) (Proc.devRef .tc main_arg6) = _
  dsimp only [hostOps1]
  after_results
  exact W2_arg6 m ρ c

theorem V3_v28 (c : Dev nD) : V3 m ρ c main_v28 = transpose S64x64 [1, 0] (aR1 m c) transposes_S64x64_S64x64_1_0 := by
  show StableHlo.after hostOps1 (W2 m ρ c) (Proc.devRef .tc main_v28) = _
  dsimp only [hostOps1]
  after_results
  rw [W2_arg7]

theorem W3_arg8 (c : Dev nD) : W3 m ρ c (Proc.devRef .tc main_arg8) = aWo m c := by
  show StableHlo.after hostOps1 (W2 m ρ c) (Proc.devRef .tc main_arg8) = _
  dsimp only [hostOps1]
  after_results
  exact W2_arg8 m ρ c
theorem W3_arg9 (c : Dev nD) : W3 m ρ c (Proc.devRef .tc main_arg9) = abo m c := by
  show StableHlo.after hostOps1 (W2 m ρ c) (Proc.devRef .tc main_arg9) = _
  dsimp only [hostOps1]
  after_results
  exact W2_arg9 m ρ c

/-! ## After the second region -/

/-- The second region leaves the second hidden layer in its result array. -/
theorem W4_v29 (c : Dev nD) : W4 m ρ c (Proc.devRef .tc main_v29) = H2 m c :=
  (W4_arr m ρ c 5).trans ((Region1.arr (V3 m ρ) c).trans (by
    rw [V3_v26, V3_v16, V3_v27, V3_arg6, V3_v28]; rfl))

theorem W4_arg8 (c : Dev nD) : W4 m ρ c (Proc.devRef .tc main_arg8) = aWo m c :=
  (W4_of_ne m ρ c main_arg8 (by decide)).trans (W3_arg8 m ρ c)
theorem W4_arg9 (c : Dev nD) : W4 m ρ c (Proc.devRef .tc main_arg9) = abo m c :=
  (W4_of_ne m ρ c main_arg9 (by decide)).trans (W3_arg9 m ρ c)

/-! ## Before the last region -/

theorem V5_v29 (c : Dev nD) : V5 m ρ c main_v29 = H2 m c := by
  show StableHlo.after hostOps2 (W4 m ρ c) (Proc.devRef .tc main_v29) = _
  dsimp only [hostOps2]
  after_results
  exact W4_v29 m ρ c

theorem V5_v30 (c : Dev nD) : V5 m ρ c main_v30 = transpose S64x1 [1, 0] (aWo m c) transposes_S1x64_S64x1_1_0 := by
  show StableHlo.after hostOps2 (W4 m ρ c) (Proc.devRef .tc main_v30) = _
  dsimp only [hostOps2]
  after_results
  rw [W4_arg8]

theorem V5_arg9 (c : Dev nD) : V5 m ρ c main_arg9 = abo m c := by
  show StableHlo.after hostOps2 (W4 m ρ c) (Proc.devRef .tc main_arg9) = _
  dsimp only [hostOps2]
  after_results
  exact W4_arg9 m ρ c

/-! ## The result -/

/-- At the end of @main the result array holds the model of the launch contents of the ten arguments. -/
theorem result_eq (c : Dev nD) : W6 m ρ c (Proc.devRef .tc main_v31)
    = model (aX m c) (aE m c) (aW0 m c) (ab0 m c) (aR0 m c) (aW1 m c) (ab1 m c) (aR1 m c) (aWo m c) (abo m c) :=
  (W6_arr m ρ c 3).trans ((Region2.arr (V5 m ρ) c).trans (by
    rw [V5_v29, V5_v30, V5_arg9]; rfl))

end Cert.GraphConv.Chain

end
-- ==== Proof.RefValue.lean ====
/- The reference program's result is the model of its arguments: its composed host term is two host-spelt layers on
   neighbour sums and the host-spelt head. -/
import proofs.«132947_j8177617732073_1_alg».proof.Proof.Gen.ReferenceIdeal.Run
import proofs.«132947_j8177617732073_1_alg».proof.Proof.Model

set_option maxRecDepth 16384

noncomputable section

namespace Cert.GraphConv.Ref

open Cert.ReferenceIdeal Cert.ReferenceIdeal.Value Cert.GraphConv
open Idealize.ShloMosaic Idealize.ShloMosaic.TcCoe Idealize.SL.Sem

/-- The run's result term is the model of the launch contents of the ten arguments. -/
theorem result_eq (m : (ℓ : Loc nD τ sig) → Buf (Elt Ideal) ℓ) (c : Dev nD) :
    res_main_v46 (F := Ideal) m c
      = model (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold res_main_v46
  rw [host_head, host_layer, host_layer]
  rfl

end Cert.GraphConv.Ref

end
-- ==== Proof.lean ====
/- Two stacked graph-convolution layers with tanh and a linear head, on 100000 nodes of 64 features and 1000000 edges.
   Both programs compute the neighbour sums on the host, by the same gather of source rows and scatter-add into
   destination rows. The kernel program then runs each layer as a row-blocked kernel, 20 blocks of 5000 rows, computing
   tanh ((A · Wr + X · Wo) + b) on each block with bf16 operands; the reference computes tanh ((A · Wr + b) + X · Wo) on
   the whole arrays. Over the extended reals a change of float format is the identity and the sum of three terms may
   be re-grouped (addition there is commutative and associative, so finiteness of the inputs is not used), a layer is
   row-local, and the 20 blocks cover all rows: so each kernel region leaves the layer (the last one the head) of the
   arrays it finds, and both programs end with one function, the model, of the ten arguments.
   The frames of the two kernel programs are the generated frame certificates; the reference's frame is its generated
   run; nothing was rewritten when the kernel was idealized, so that claim is trivial. -/
import proofs.«132947_j8177617732073_1_alg».proof.Defs
import proofs.«132947_j8177617732073_1_alg».proof.Proof.Gen.Kernel
import proofs.«132947_j8177617732073_1_alg».proof.Proof.Gen.Kernel.Frame
import proofs.«132947_j8177617732073_1_alg».proof.Proof.Gen.KernelIdeal
import proofs.«132947_j8177617732073_1_alg».proof.Proof.Gen.KernelIdeal.Frame
import proofs.«132947_j8177617732073_1_alg».proof.Proof.Gen.ReferenceIdeal
import proofs.«132947_j8177617732073_1_alg».proof.Proof.Gen.ReferenceIdeal.Run
import proofs.«132947_j8177617732073_1_alg».proof.Proof.Gen.Pre_finite_inputs
import proofs.«132947_j8177617732073_1_alg».proof.Proof.KernelRunNamed
import proofs.«132947_j8177617732073_1_alg».proof.Proof.KernelChain
import proofs.«132947_j8177617732073_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the model of their arguments, and the arguments agree. -/
theorem algebraic : Cert.algebraic_KernelIdeal_ReferenceIdeal := by
  intro m ρ m' ρ' _ hagree
  refine ⟨_, Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.GraphConv.Ref.result_eq, Cert.GraphConv.Chain.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
